-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S50000x64 .f32) (main_arg1 : IVec S2x800000 32) (main_arg2 : FVec F S64x64 .f32) (main_arg3 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 61
  | .vmem => 12
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S50000, .i32⟩
  | .hbm, ⟨5, _⟩ => ⟨S1x800000, .i32⟩
  | .hbm, ⟨6, _⟩ => ⟨S800000, .i32⟩
  | .hbm, ⟨7, _⟩ => ⟨S850000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S850000, .i32⟩
  | .hbm, ⟨26, _⟩ => ⟨S850000, .i1⟩
  | .hbm, ⟨27, _⟩ => ⟨S_, .i32⟩
  | .hbm, ⟨28, _⟩ => ⟨S850000, .i32⟩
  | .hbm, ⟨29, _⟩ => ⟨S850000, .i32⟩
  | .hbm, ⟨30, _⟩ => ⟨S850000, .i32⟩
  | .hbm, ⟨31, _⟩ => ⟨S850000x1, .i32⟩
  | .hbm, ⟨32, _⟩ => ⟨S850000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S850000, .f32⟩
  | .hbm, ⟨43, _⟩ => ⟨S50000x64, .f32⟩
  | .hbm, ⟨44, _⟩ => ⟨S850000x1, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x64, .f32⟩
  | .hbm, ⟨54, _⟩ => ⟨S850000x64, .f32⟩
  | .hbm, ⟨55, _⟩ => ⟨S850000x64, .f32⟩
  | .hbm, ⟨56, _⟩ => ⟨S_, .f32⟩
  | .hbm, ⟨57, _⟩ => ⟨S50000x64, .f32⟩
  | .hbm, ⟨58, _⟩ => ⟨S850000x1, .i32⟩
  | .hbm, ⟨59, _⟩ => ⟨S50000x64, .f32⟩
  | .hbm, ⟨60, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S64, .f32⟩
  | .local _ .vmem, ⟨10, _⟩ => ⟨S5000x64, .f32⟩
  | .local _ .vmem, ⟨11, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_6 : Ref sig .tc := ⟨.hbm, 45, rfl⟩
abbrev main_v33 : Ref sig .tc := ⟨.hbm, 46, rfl⟩
abbrev main_v34 : Ref sig .tc := ⟨.hbm, 47, rfl⟩
abbrev main_c_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  inb_S64_S64_0 : ∀ a, (![0] : Fin 1 → Nat) a + S64.size a ≤ S64.size a
  h_S64 : 0 < S64.numel
  shapeCasts_S64_S1x64 : S64.ShapeCasts S1x64
  shapeCasts_S5000x64_S5000x64 : S5000x64.ShapeCasts S5000x64
  broadcasts_S1x64_S5000x64 : S1x64.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x64_S64x64_S5000x64_1_0_0_1_n_n_wf : DotDims.WF S5000x64 S64x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩

abbrev nBuf : Space → Nat
  | .hbm => 68
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S50000, .i32⟩
  | .hbm, ⟨5, _⟩ => ⟨S1x800000, .i32⟩
  | .hbm, ⟨6, _⟩ => ⟨S800000, .i32⟩
  | .hbm, ⟨7, _⟩ => ⟨S850000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S850000, .i32⟩
  | .hbm, ⟨26, _⟩ => ⟨S850000, .i1⟩
  | .hbm, ⟨27, _⟩ => ⟨S_, .i32⟩
  | .hbm, ⟨28, _⟩ => ⟨S850000, .i32⟩
  | .hbm, ⟨29, _⟩ => ⟨S850000, .i32⟩
  | .hbm, ⟨30, _⟩ => ⟨S850000, .i32⟩
  | .hbm, ⟨31, _⟩ => ⟨S850000x1, .i32⟩
  | .hbm, ⟨32, _⟩ => ⟨S850000, .f32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S50000x64, .f32⟩
  | .hbm, ⟨45, _⟩ => ⟨S850000x1, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x64, .f32⟩
  | .hbm, ⟨55, _⟩ => ⟨S850000x64, .f32⟩
  | .hbm, ⟨56, _⟩ => ⟨S850000x64, .f32⟩
  | .hbm, ⟨57, _⟩ => ⟨S_, .f32⟩
  | .hbm, ⟨58, _⟩ => ⟨S50000x64, .f32⟩
  | .hbm, ⟨59, _⟩ => ⟨S850000x1, .i32⟩
  | .hbm, ⟨60, _⟩ => ⟨S50000x64, .f32⟩
  | .hbm, ⟨61, _⟩ => ⟨S1x64, .f32⟩
  | .hbm, ⟨62, _⟩ => ⟨S50000x64, .f32⟩
  | .hbm, ⟨63, _⟩ => ⟨S50000x64, .f32⟩
  | .hbm, ⟨64, _⟩ => ⟨S_, .f32⟩
  | .hbm, ⟨65, _⟩ => ⟨S50000x64, .f32⟩
  | .hbm, ⟨66, _⟩ => ⟨S50000x64, .f32⟩
  | .hbm, ⟨67, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_call1_cst : Ref sig .tc := ⟨.hbm, 64, rfl⟩
abbrev main_call1_v0 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Consts.lean ====
/-
  The one float constant this certificate evaluates: the pattern of `1.0` (sign 0, exponent 127, fraction 0)
  denotes `2^23 · 2^(127 - 127 - 23) = 1` on the extended reals.
-/
import Idealize.ShloMosaic.PureOps.Ideal

noncomputable section

namespace Cert.Consts

open Idealize.ShloMosaic

/-- The pattern of `1.0` denotes the extended real `1`. -/
theorem one_f32 : Ideal.ofBits .f32 0x3F800000#32 = 1 := by
  simp [Ideal.ofBits, Ideal.ieee, -EReal.coe_mul]
  norm_num

end Cert.Consts

end
-- ==== Proof.AggSpec.lean ====
/-
  The message aggregation as one function of its four inputs, and the one algebraic law of this certificate.

  With `row`, `col : i32[850000]` the edge list's sources and destinations (self loops appended), `nrm : f32[850000]`
  the per-edge normalisation and `h : f32[50000, 64]` the transformed features, the aggregate is the scatter-add,
  into a zero array along `col`, of the messages `nrm e · h[row e, ·]` (the gather wraps a negative row index by
  the row count first). Both programs apply exactly these host operations; they differ only in how `nrm` and `h`
  were computed. The reference's aggregate stage is this function of its own stages, by unfolding.

  The law: the reference multiplies the gathered `dinv[row]` by the edge weights, which are all `1`, before the
  product with `dinv[col]`; on the extended reals `a · 1 = a`, so its normalisation is the plain product
  `dinv[row] · dinv[col]` that the kernel's program forms.
-/
import proofs.«111839_j88527865905437_1_alg».proof.Proof.RefReadP
import proofs.«111839_j88527865905437_1_alg».proof.Proof.Consts
import Idealize.ShloMosaic.Lib.ValueIdx

noncomputable section

namespace Cert.AggSpec

open Cert.ReferenceIdeal Cert.ReferenceIdeal.Gen Cert.ReferenceIdeal.ReadP Idealize.ShloMosaic

section Generic

variable {F : FTy → Type} [FloatOps F]

/-- The scatter-add of the scaled gathered rows: `agg[col e, ·] += nrm e · h[row e, ·]` over all edges `e`. -/
def aggregate (nrm : (⟨S850000, .f32⟩ : BufTy).Contents (Elt F)) (h : (⟨S50000x64, .f32⟩ : BufTy).Contents (Elt F))
    (row col : (⟨S850000, .i32⟩ : BufTy).Contents (Elt F)) : (⟨S50000x64, .f32⟩ : BufTy).Contents (Elt F) :=
  Host.scatterAdd scatter_S50000x64_S850000x1_S850000x64_1_0_0_1 (val_main_v43 (F := F))
    (broadcastInDim S850000x1 ![0] bcast_S850000_S850000x1_0 col)
    (mulf
      (broadcastInDim S850000x64 ![0, 1] bcast_S850000x1_S850000x64_0_1
        (broadcastInDim S850000x1 ![0] bcast_S850000_S850000x1_0 nrm))
      (Host.gather gather_S50000x64_S850000x1_S850000x64_1_0_n_n_0_1_164 h
        (broadcastInDim S850000x1 ![0] bcast_S850000_S850000x1_0
          (select (cmpi .slt row (val_main_v34 (F := F))) (addi row (val_main_v36 (F := F))) row))))

/-- The reference's aggregate stage is `aggregate` of its normalisation, its matrix product and its two index lists. -/
theorem val_main_v45_eq (x0 : (⟨S50000x64, .f32⟩ : BufTy).Contents (Elt F)) (x1 : (⟨S2x800000, .i32⟩ : BufTy).Contents (Elt F))
    (x2 : (⟨S64x64, .f32⟩ : BufTy).Contents (Elt F)) :
    val_main_v45 (F := F) x0 x1 x2
      = aggregate (val_main_v31 (F := F) x1) (val_main_v32 (F := F) x0 x2) (val_main_v3 (F := F) x1) (val_main_v6 (F := F) x1) := rfl

/-- The plain per-edge normalisation `dinv[row e] · dinv[col e]`, over the reference's two gathered stages. -/
def edgeNorm (x1 : (⟨S2x800000, .i32⟩ : BufTy).Contents (Elt F)) : (⟨S850000, .f32⟩ : BufTy).Contents (Elt F) :=
  mulf (val_main_v22 (F := F) x1) (val_main_v30 (F := F) x1)

end Generic

/-- The edge weights are all `1`. -/
theorem edge_weight_one (i : S850000.Idx) : val_main_v7 (F := Ideal) i = 1 := by
  rw [val_main_v7_apply, val_main_cst_apply, Ideal.ofBits_def, Cert.Consts.one_f32]

/-- THE LAW: `dinv[row] · dinv[col]` is the reference's `(dinv[row] · 1) · dinv[col]`. -/
theorem edgeNorm_eq (x1 : (⟨S2x800000, .i32⟩ : BufTy).Contents (Elt Ideal)) :
    edgeNorm (F := Ideal) x1 = val_main_v31 (F := Ideal) x1 := by
  have hw : mulf (F := Ideal) (s := S850000) (φ := .f32) (val_main_v22 (F := Ideal) x1) (val_main_v7 (F := Ideal))
      = val_main_v22 (F := Ideal) x1 := by
    funext i
    rw [ValueIdx.mulf_apply, edge_weight_one, mul_one]
  unfold edgeNorm val_main_v31 val_main_v23
  rw [hw]

end Cert.AggSpec

end
-- ==== Proof.HostValue.lean ====
/-
  What the host operations of the kernel's program leave in the buffers the aggregation reads.

  Before the first kernel region the program builds, from the edge list alone, the source and destination lists
  `row`, `col` (the two rows of the edge list, each with the self loops `0 … 49999` appended), the degree
  `deg = scatter-add of ones along col`, `dinv = where (deg > 0, rsqrt deg, 0)` and the normalisation
  `dinv[row] · dinv[col]`. These are operation for operation the reference's stages, except that the reference
  multiplies by the unit edge weights in between. Between the two kernel regions the program scatter-adds the
  messages `nrm · h[row]` along `col`: the function `aggregate` of the four buffers' contents.
-/
import proofs.«111839_j88527865905437_1_alg».proof.Proof.Gen.KernelIdeal.Frame
import proofs.«111839_j88527865905437_1_alg».proof.Proof.AggSpec

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- At region 0's entry `main_v3` holds the source list: the edge list's first row, then the self loops. -/
theorem row_W3 (c : Dev nD) :
    W3 m ρ c (Proc.devRef .tc main_v3) = Cert.ReferenceIdeal.ReadP.val_main_v3 (F := F) (m ((c : Thread nD τ).loc main_arg1)) := by
  show StableHlo.after hostOps0_2 (StableHlo.after hostOps0_1 (StableHlo.after hostOps0 (W0 m ρ c))) (Proc.devRef .tc main_v3) = _
  simp only [hostOps0, hostOps0_1, hostOps0_2]
  after_results_simp
  rfl

/-- At region 0's entry `main_v6` holds the destination list: the edge list's second row, then the self loops. -/
theorem col_W3 (c : Dev nD) :
    W3 m ρ c (Proc.devRef .tc main_v6) = Cert.ReferenceIdeal.ReadP.val_main_v6 (F := F) (m ((c : Thread nD τ).loc main_arg1)) := by
  show StableHlo.after hostOps0_2 (StableHlo.after hostOps0_1 (StableHlo.after hostOps0 (W0 m ρ c))) (Proc.devRef .tc main_v6) = _
  simp only [hostOps0, hostOps0_1, hostOps0_2]
  after_results_simp
  rfl

/-- At region 0's entry `main_v30` holds the plain product `dinv[row] · dinv[col]` of the reference's two gathered
    stages. -/
theorem nrm_W3 (c : Dev nD) :
    W3 m ρ c (Proc.devRef .tc main_v30)
      = Cert.AggSpec.edgeNorm (F := F) (m ((c : Thread nD τ).loc main_arg1)) := by
  show StableHlo.after hostOps0_2 (StableHlo.after hostOps0_1 (StableHlo.after hostOps0 (W0 m ρ c))) (Proc.devRef .tc main_v30) = _
  simp only [hostOps0, hostOps0_1, hostOps0_2]
  after_results_simp
  rfl

/-- At region 1's entry `main_v44` holds `aggregate` of what region 0 left in the four buffers it reads. -/
theorem agg_W5 (c : Dev nD) (nrm : (⟨S850000, .f32⟩ : BufTy).Contents (Elt F)) (h : (⟨S50000x64, .f32⟩ : BufTy).Contents (Elt F))
    (row col : (⟨S850000, .i32⟩ : BufTy).Contents (Elt F))
    (hn : W4 m ρ c (Proc.devRef .tc main_v30) = nrm) (hh : W4 m ρ c (Proc.devRef .tc main_v31) = h)
    (hr : W4 m ρ c (Proc.devRef .tc main_v3) = row) (hc : W4 m ρ c (Proc.devRef .tc main_v6) = col) :
    W5 m ρ c (Proc.devRef .tc main_v44) = Cert.AggSpec.aggregate nrm h row col := by
  show StableHlo.after hostOps1 (W4 m ρ c) (Proc.devRef .tc main_v44) = _
  simp only [hostOps1]
  after_results_simp
  rw [hn, hh, hr, hc]
  rfl

end Cert.KernelIdeal.HostValue

end
-- ==== Proof.Boundary.lean ====
/-
  The argument arrays read back at the boundaries where the two kernel regions are entered. No host operation
  writes an argument and a region only reads one through an input window, so the buffer contents at region 0's
  entry (`W3`) and at region 1's entry (`W5`), read at an argument's buffer, are the launch memory's.
-/
import proofs.«111839_j88527865905437_1_alg».proof.Proof.Gen.KernelIdeal.Frame

set_option maxRecDepth 16384

noncomputable section

namespace Cert.KernelIdeal.Boundary

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- At region 0's entry argument 0 holds the launch memory's contents. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- At region 1's entry argument 0 holds the launch memory's contents. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := (W4_arr m ρ c 0).trans (((dat0 (V3 m ρ) c).arrAt_in 0 rfl _).trans (A_eq0 (V3 m ρ) c 0))
    _ = m ((c : Thread nD τ).loc main_arg0) := W3_main_arg0 m ρ c

/-- At region 0's entry argument 1 holds the launch memory's contents. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- At region 1's entry argument 1 holds the launch memory's contents. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = m ((c : Thread nD τ).loc main_arg1) := W3_main_arg1 m ρ c

/-- At region 0's entry argument 2 holds the launch memory's contents. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- At region 1's entry argument 2 holds the launch memory's contents. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := (W4_arr m ρ c 1).trans (((dat0 (V3 m ρ) c).arrAt_in 1 rfl _).trans (A_eq0 (V3 m ρ) c 1))
    _ = m ((c : Thread nD τ).loc main_arg2) := W3_main_arg2 m ρ c

/-- At region 0's entry argument 3 holds the launch memory's contents. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- At region 1's entry argument 3 holds the launch memory's contents. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = m ((c : Thread nD τ).loc main_arg3) := W3_main_arg3 m ρ c

end Cert.KernelIdeal.Boundary

end
-- ==== Proof.LibRowDot.lean ====
/-
  A plain two-dimensional contraction read at an index. For dimension numbers that contract the left
  operand's last axis with the right operand's first axis and have no batch axes — the numbers of an
  ordinary matrix product `[n, d] × [d, h] → [n, h]` — the sum over the contraction index, at the
  result index `j`, is the sum over `k : Fin d` of the left operand at `(j 0, k)` times the right
  operand at `(k, j 1)`: row `j 0` of the left matrix against column `j 1` of the right one
  (`rowDot`). Stated for ANY such dimension-number record, from equations naming its six lists, so it
  serves a kernel's matrix product on a block of rows and the host's product on a whole array alike.
-/
import Idealize.ShloMosaic.Lib.ValueIdx
import Idealize.ShloMosaic.PureOps.Ideal.Laws

noncomputable section

open scoped BigOperators

namespace Cert.LibRowDot

open Idealize.ShloMosaic Idealize.ShloMosaic.ValueIdx

/-- A matrix of extended reals with `n` rows and `d` columns, as a function of its rank-2 index. -/
abbrev Mat (n d : ℕ) : Type := (⟨2, ![n, d]⟩ : Shape).Idx → EReal

/-- Row `r` of `a` against column `q` of `w`: `∑ k, a (r, k) · w (k, q)`. -/
def rowDot {n d h : ℕ} (a : Mat n d) (w : Mat d h) (r : Fin n) (q : Fin h) : EReal :=
  ∑ k : Fin d, a (ix2 r k) * w (ix2 k q)

section Plain

variable {n d h : ℕ} (D : DotDims ⟨2, ![n, d]⟩ ⟨2, ![d, h]⟩ ⟨2, ![n, h]⟩)

/-- One contracting axis: the contraction shape has rank one. -/
theorem contr_rank (hlc : D.lhsContracting = [1]) : D.contr.rank = 1 := by
  rw [D.rank_contr, hlc]; rfl

/-- Its one axis has the left operand's column count. -/
theorem contr_size (hlc : D.lhsContracting = [1]) :
    D.contr.size ⟨0, by rw [contr_rank D hlc]; exact Nat.one_pos⟩ = d := by
  have h := D.size_contr 0 (by rw [hlc]; exact Nat.one_pos)
  rw [h]
  simp only [hlc, List.getElem_cons_zero]
  rfl

private theorem coord_congr {m : ℕ} {sz : Fin m → ℕ} (j : (a : Fin m) → Fin (sz a)) :
    ∀ (p q : ℕ) (hp : p < m) (hq : q < m), p = q → (j ⟨p, hp⟩).val = (j ⟨q, hq⟩).val :=
  fun p q hp hq e => by subst e; rfl

/-- The left operand's row coordinate is the result's row coordinate. -/
theorem lhs_row (hln : D.lhsNonContracting = [0]) (hlb : D.lhsBatch = [])
    (j : (⟨2, ![n, h]⟩ : Shape).Idx) (k : D.contr.Idx) : (D.lhsIdx j k 0).val = (j 0).val := by
  have hb : (0 : Fin (⟨2, ![n, d]⟩ : Shape).rank) ∉ D.lhsBatch := by rw [hlb]; exact List.not_mem_nil
  have hn : (0 : Fin (⟨2, ![n, d]⟩ : Shape).rank) ∈ D.lhsNonContracting := by rw [hln]; exact List.mem_singleton.mpr rfl
  unfold DotDims.lhsIdx
  rw [dif_neg hb, dif_pos hn]
  simp only [Fin.val_cast]
  exact coord_congr j _ _ _ _ (by simp [hlb, hln])

/-- The left operand's column coordinate is the contraction index's one coordinate. -/
theorem lhs_col (hlc : D.lhsContracting = [1]) (j : (⟨2, ![n, h]⟩ : Shape).Idx) (k : D.contr.Idx) :
    (D.lhsIdx j k 1).val = (k ⟨0, by rw [contr_rank D hlc]; exact Nat.one_pos⟩).val :=
  D.lhsIdx_val_of_single hlc j k

/-- The right operand's row coordinate is the contraction index's one coordinate. -/
theorem rhs_row (hlc : D.lhsContracting = [1]) (hrc : D.rhsContracting = [0]) (j : (⟨2, ![n, h]⟩ : Shape).Idx)
    (k : D.contr.Idx) : (D.rhsIdx j k 0).val = (k ⟨0, by rw [contr_rank D hlc]; exact Nat.one_pos⟩).val :=
  D.rhsIdx_val_of_single hrc j k

/-- The right operand's column coordinate is the result's column coordinate. -/
theorem rhs_col (hln : D.lhsNonContracting = [0]) (hrn : D.rhsNonContracting = [1]) (hlb : D.lhsBatch = [])
    (hrb : D.rhsBatch = []) (j : (⟨2, ![n, h]⟩ : Shape).Idx) (k : D.contr.Idx) :
    (D.rhsIdx j k 1).val = (j 1).val := by
  have hb : (1 : Fin (⟨2, ![d, h]⟩ : Shape).rank) ∉ D.rhsBatch := by rw [hrb]; exact List.not_mem_nil
  have hn : (1 : Fin (⟨2, ![d, h]⟩ : Shape).rank) ∈ D.rhsNonContracting := by rw [hrn]; exact List.mem_singleton.mpr rfl
  unfold DotDims.rhsIdx
  rw [dif_neg hb, dif_pos hn]
  simp only [Fin.val_cast]
  exact coord_congr j _ _ _ _ (by simp [hlb, hln, hrn])

/-- THE CONTRACTION AS A ROW AGAINST A COLUMN: the sum over the record's contraction index is `rowDot`. -/
theorem sum_contr_eq_rowDot (hlc : D.lhsContracting = [1]) (hrc : D.rhsContracting = [0])
    (hln : D.lhsNonContracting = [0]) (hrn : D.rhsNonContracting = [1]) (hlb : D.lhsBatch = [])
    (hrb : D.rhsBatch = []) (l : Mat n d) (r : Mat d h) (j : (⟨2, ![n, h]⟩ : Shape).Idx) :
    ∑ k : D.contr.Idx, l (D.lhsIdx j k) * r (D.rhsIdx j k) = rowDot l r (j 0) (j 1) := by
  unfold rowDot
  rw [← Equiv.sum_comp (contrEquiv1 D d (contr_rank D hlc) (contr_size D hlc)).symm]
  refine Finset.sum_congr rfl fun k _ => ?_
  have hk := contrEquiv1_symm_val D d (contr_rank D hlc) (contr_size D hlc) k
  have el : D.lhsIdx j ((contrEquiv1 D d (contr_rank D hlc) (contr_size D hlc)).symm k) = ix2 (j 0) k := by
    funext a; apply Fin.ext
    match a with
    | ⟨0, _⟩ => exact lhs_row D hln hlb _ _
    | ⟨1, _⟩ => exact (lhs_col D hlc _ _).trans hk
  have er : D.rhsIdx j ((contrEquiv1 D d (contr_rank D hlc) (contr_size D hlc)).symm k) = ix2 k (j 1) := by
    funext a; apply Fin.ext
    match a with
    | ⟨0, _⟩ => exact (rhs_row D hlc hrc _ _).trans hk
    | ⟨1, _⟩ => exact rhs_col D hln hrn hlb hrb _ _
  exact congrArg₂ (· * ·) (congrArg l el) (congrArg r er)

/-- A kernel's matrix product into a zero accumulator, at the ideal values, read at an index. -/
theorem matmul_zero_apply (hlc : D.lhsContracting = [1]) (hrc : D.rhsContracting = [0])
    (hln : D.lhsNonContracting = [0]) (hrn : D.rhsNonContracting = [1]) (hlb : D.lhsBatch = [])
    (hrb : D.rhsBatch = []) (prec : Option ContractPrecision) (l : FVec Ideal ⟨2, ![n, d]⟩ .f32)
    (r : FVec Ideal ⟨2, ![d, h]⟩ .f32) (j : (⟨2, ![n, h]⟩ : Shape).Idx) :
    FloatOps.matmul D prec l r (constant ⟨2, ![n, h]⟩ .f32 0x00000000#32) j = rowDot l r (j 0) (j 1) := by
  rw [Ideal.matmul_constant_zero_apply]
  exact sum_contr_eq_rowDot D hlc hrc hln hrn hlb hrb l r j

/-- The host's matrix product, at the ideal values, read at an index. -/
theorem dotGeneral_apply (hlc : D.lhsContracting = [1]) (hrc : D.rhsContracting = [0])
    (hln : D.lhsNonContracting = [0]) (hrn : D.rhsNonContracting = [1]) (hlb : D.lhsBatch = [])
    (hrb : D.rhsBatch = []) (prec : Option ContractPrecision) (sched : HostSchedule)
    (l : FVec Ideal ⟨2, ![n, d]⟩ .f32) (r : FVec Ideal ⟨2, ![d, h]⟩ .f32) (j : (⟨2, ![n, h]⟩ : Shape).Idx) :
    FloatOps.dotGeneral D prec sched l r j = rowDot l r (j 0) (j 1) := by
  rw [Ideal.dotGeneral_apply]
  exact sum_contr_eq_rowDot D hlc hrc hln hrn hlb hrb l r j

end Plain

end Cert.LibRowDot

end
-- ==== Proof.LinearValue.lean ====
/-
  Region 0 computes the linear layer's product `h = x · W` of the features `x : [50000, 64]` and the weight
  `W : [64, 64]`, ten blocks of 5000 rows at a time: point `t` multiplies rows `5000·t … 5000·t + 4999` of `x`
  by the whole of `W` into a zero accumulator and writes the product back as rows `5000·t … 5000·t + 4999` of the
  output. Entry `(r, q)` of what a point writes is `∑ k, x (r, k) · W (k, q)` (the casts of both operands to a
  narrower float format are the identity at the ideal values), which is entry `(r, q)` of the host's product of the
  whole arrays; the ten blocks fill the array, so after the region the array is that product.
-/
import proofs.«111839_j88527865905437_1_alg».proof.Proof.Gen.KernelIdeal.Frame
import proofs.«111839_j88527865905437_1_alg».proof.Proof.Boundary
import proofs.«111839_j88527865905437_1_alg».proof.Proof.RefReadP
import proofs.«111839_j88527865905437_1_alg».proof.Proof.LibRowDot

set_option maxRecDepth 16384

noncomputable section

namespace Cert.KernelIdeal.LinearValue

open Cert.KernelIdeal Cert.KernelIdeal.Gen
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

open Cert.LibRowDot (Mat rowDot)
open Idealize.ShloMosaic.ValueIdx (ix2)

/-- The zero offsets of a whole-buffer rectangle. -/
theorem zero_off : (![0, 0] : Fin 2 → Nat) = fun _ => 0 := funext fun a => by fin_cases a <;> rfl

/-- The body's arithmetic at an index of its block: row `y 0` of the loaded features against column `y 1`
    of the loaded weight (the two casts to the narrower format are the identity at the ideal values, and the
    accumulator is zero). -/
theorem payload_apply (x : Vec Ideal S5000x64 .f32) (w : Vec Ideal S64x64 .f32) (y : S5000x64.Idx) :
    k0_pay1 x w y = rowDot x w (y 0) (y 1) := by
  unfold k0_pay1
  exact Cert.LibRowDot.matmul_zero_apply dot_S5000x64_S64x64_S5000x64_1_0_0_1_n_n rfl rfl rfl rfl rfl rfl none x w y

/-- The host's product at an index of the whole array. -/
theorem host_apply (x : (⟨S50000x64, .f32⟩ : BufTy).Contents (Elt Ideal)) (w : (⟨S64x64, .f32⟩ : BufTy).Contents (Elt Ideal)) (i : S50000x64.Idx) :
    Cert.ReferenceIdeal.ReadP.val_main_v32 (F := Ideal) x w i = rowDot x w (i 0) (i 1) := by
  unfold Cert.ReferenceIdeal.ReadP.val_main_v32
  exact Cert.LibRowDot.dotGeneral_apply _ rfl rfl rfl rfl rfl rfl none _ x w i

/-- A row of a block of rows against a column is the same row of the whole matrix against that column: the
    block's row `p` is the matrix's row `r`, and the two weights agree on the column. -/
theorem rowDot_block (X : Mat 50000 64) (Wt : Mat 64 64) (x : Mat 5000 64) (w : Mat 64 64)
    (p : Fin 5000) (r : Fin 50000) (q q' : Fin 64) (hq : (q : ℕ) = q')
    (hx : ∀ k : Fin 64, x (ix2 p k) = X (ix2 r k))
    (hw : ∀ k : Fin 64, w (ix2 k q) = Wt (ix2 k q)) :
    rowDot x w p q = rowDot X Wt r q' := by
  obtain rfl : q = q' := Fin.ext hq
  unfold rowDot
  exact Finset.sum_congr rfl fun k _ => by rw [hx k, hw k]

/-- The printed index maps over the grid: the feature window moves with the output window along the rows, and
    the feature and output windows stay at column block zero, the weight window at block zero on both axes. -/
theorem idx_facts : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every row block of the output is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of the product of the whole arrays. -/
theorem flushed_eq (c : Dev nD) (t : Fin cfg0.N) :
    (dat0 (V3 m ρ) c).flushed 2 t = ((cfg0.win 2).blk t).view.read (Elt Ideal)
      (Cert.ReferenceIdeal.ReadP.val_main_v32 (F := Ideal) (m ((c : Thread nD τ).loc main_arg0)) (m ((c : Thread nD τ).loc main_arg2))) := by
  show (cfg0.win 2).cut (grid0.coords t) ((dat0 (V3 m ρ) c).after 2 t) = _
  rw [after0_2]
  unfold out0_2
  rw [View.canon_unit_zero zero_off]
  simp only [View.ld_unit_zero (S := S5000x64) zero_off, View.ld_unit_zero (S := S64x64) zero_off]
  obtain ⟨e0, e1, e2, e3, e4⟩ := idx_facts t
  funext y
  show k0_pay1 (iblk0 (V3 m ρ) c 0 t) (iblk0 (V3 m ρ) c 1 t) y = Cert.ReferenceIdeal.ReadP.val_main_v32 (F := Ideal) _ _ (((cfg0.win 2).blk t).view.emb y)
  refine (payload_apply _ _ y).trans (Eq.trans ?_ (host_apply _ _ _).symm)
  refine rowDot_block _ _ _ _ _ _ _ _ ?_ ?_ ?_
  · show (y 1).val = win0_2.index t (1 : Fin 2) * 64 + 1 * (y 1).val
    omega
  · intro k
    show V3 m ρ c main_arg0 (((cfg0.win 0).blk t).view.emb (ix2 (y 0) k)) = _
    refine (congrFun (Boundary.W3_main_arg0 m ρ c) _).trans (congrArg _ ?_)
    funext a; apply Fin.ext
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 64 + 1 * k.val = k.val; omega
  · intro k
    show V3 m ρ c main_arg2 (((cfg0.win 1).blk t).view.emb (ix2 k (y 1))) = _
    refine (congrFun (Boundary.W3_main_arg2 m ρ c) _).trans (congrArg _ ?_)
    funext a; apply Fin.ext
    match a with
    | ⟨0, _⟩ => show win0_1.index t (0 : Fin 2) * 64 + 1 * k.val = k.val; omega
    | ⟨1, _⟩ => show win0_1.index t (1 : Fin 2) * 64 + 1 * (y 1).val = (y 1).val; omega

/-- An index of the array is in point `t`'s block iff each coordinate is in the block's range on its axis. -/
theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v31).slice (win0_2.rect t)).set ↔ _
  rw [View.set_slice_whole, Rect.mem_set_unit]
  exact Iff.rfl

/-- Row `r` of the array lies in the block of point `r / 5000`: the ten blocks of 5000 rows fill the array. -/
theorem cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After region 0 the array `main_v31` holds the matrix product of the input features and the weight. -/
theorem h_array (c : Dev nD) :
    W4 m ρ c (Proc.devRef .tc main_v31)
      = Cert.ReferenceIdeal.ReadP.val_main_v32 (F := Ideal) (m ((c : Thread nD τ).loc main_arg0)) (m ((c : Thread nD τ).loc main_arg2)) := by
  exact (W4_arr m ρ c 2).trans
    ((dat0 (V3 m ρ) c).arrAt_eq_of_cover 2 _ (fun t _ => flushed_eq m ρ c t) cover)

end Cert.KernelIdeal.LinearValue

end
-- ==== Proof.RefValue.lean ====
/-
  The reference's last three stages as one function of the aggregated messages, the input features and the bias:
  `relu (agg + b) + x`, the bias broadcast along the rows. The reference's result is this function of its own
  aggregate.
-/
import proofs.«111839_j88527865905437_1_alg».proof.Proof.RefReadP

noncomputable section

namespace Cert.RefValue

open Cert.ReferenceIdeal Cert.ReferenceIdeal.ReadP Idealize.ShloMosaic

variable {F : FTy → Type} [FloatOps F]

/-- `max (agg + b, 0) + x`, entry by entry: the residual layer's epilogue. -/
def epilogue (agg : (⟨S50000x64, .f32⟩ : BufTy).Contents (Elt F)) (x : (⟨S50000x64, .f32⟩ : BufTy).Contents (Elt F))
    (b : (⟨S64, .f32⟩ : BufTy).Contents (Elt F)) : (⟨S50000x64, .f32⟩ : BufTy).Contents (Elt F) :=
  addf (maximumf (addf agg (val_main_v47 (F := F) b)) (val_main_call1_v0 (F := F))) x

/-- The reference's result is the epilogue of its aggregate. -/
theorem val_main_v50_eq_epilogue (x0 : (⟨S50000x64, .f32⟩ : BufTy).Contents (Elt F)) (x1 : (⟨S2x800000, .i32⟩ : BufTy).Contents (Elt F))
    (x2 : (⟨S64x64, .f32⟩ : BufTy).Contents (Elt F)) (x3 : (⟨S64, .f32⟩ : BufTy).Contents (Elt F)) :
    val_main_v50 (F := F) x0 x1 x2 x3 = epilogue (val_main_v45 (F := F) x0 x1 x2) x0 x3 := rfl

end Cert.RefValue

end
-- ==== Proof.EpilogueValue.lean ====
/-
  Region 1 applies the layer's epilogue `out = max (agg + b, 0) + x` entry by entry, ten blocks of 5000 rows at a
  time: point `t` reads rows `5000·t … 5000·t + 4999` of the aggregate `agg` and of the features `x` and the whole
  bias `b : [64]` (cast to one row and broadcast down the block), and writes the result back as the same rows of
  the output. Entry `(r, q)` of what a point writes is `max (agg (r, q) + b q, 0) + x (r, q)`, in the same scalar
  operations as the reference's last three stages read at that entry; the ten blocks fill the array, so after the
  region the array is the reference's epilogue of the aggregate the region was entered with.
-/
import proofs.«111839_j88527865905437_1_alg».proof.Proof.Gen.KernelIdeal.Frame
import proofs.«111839_j88527865905437_1_alg».proof.Proof.Boundary
import proofs.«111839_j88527865905437_1_alg».proof.Proof.RefValue
import Idealize.ShloMosaic.Lib.ValueLayout

set_option maxRecDepth 16384

noncomputable section

namespace Cert.KernelIdeal.EpilogueValue

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! ## One entry of the epilogue -/

/-- `max (a + b, 0) + x` on one entry, in the float family's own scalar operations. -/
def entry (a b x : Ideal .f32) : Ideal .f32 :=
  FloatOps.addf (F := Ideal) (FloatOps.maximumf (F := Ideal) (FloatOps.addf (F := Ideal) a b) (FloatOps.ofBits (F := Ideal) .f32 0x00000000#32)) x

/-- The body's stored block at row `p`, lane `q`: the aggregate's and the features' entry there and the bias' lane `q`
    (the bias is cast to one row and that row is broadcast down the block's rows). -/
theorem payload_apply (b : Vec Ideal S64 .f32) (a x : Vec Ideal S5000x64 .f32) (p : Fin 5000) (q : Fin 64) :
    k1_pay1 (F := Ideal) b a x (ix2 p q) = entry (a (ix2 p q)) (b (ix1 q)) (x (ix2 p q)) := by
  unfold k1_pay1
  show FloatOps.addf (F := Ideal) (φ := .f32) (FloatOps.maximumf (F := Ideal) (φ := .f32) (FloatOps.addf (F := Ideal) (φ := .f32)
      (shapeCast (α := Ideal .f32) S5000x64 a shapeCasts_S5000x64_S5000x64 (ix2 p q))
      (broadcastTo S5000x64 (shapeCast (α := Ideal .f32) S1x64 b shapeCasts_S64_S1x64) broadcasts_S1x64_S5000x64 (ix2 p q))) _) _ = _
  rw [shapeCast_self, broadcastTo_1b_ab_apply, shapeCast_a_1a_apply]
  rfl

/-- The reference's epilogue at row `r`, lane `q`: the same entry of the whole arrays (the bias is broadcast along
    the rows, the zero constant everywhere). -/
theorem epilogue_apply (agg x : Vec Ideal S50000x64 .f32) (b : Vec Ideal S64 .f32) (r : Fin 50000) (q : Fin 64) :
    Cert.RefValue.epilogue (F := Ideal) agg x b (ix2 r q) = entry (agg (ix2 r q)) (b (ix1 q)) (x (ix2 r q)) := by
  show FloatOps.addf (F := Ideal) (φ := .f32) (FloatOps.maximumf (F := Ideal) (φ := .f32) (FloatOps.addf (F := Ideal) (φ := .f32) (agg (ix2 r q))
      (Cert.ReferenceIdeal.ReadP.val_main_v47 (F := Ideal) b (ix2 r q)))
      (Cert.ReferenceIdeal.ReadP.val_main_call1_v0 (F := Ideal) (ix2 r q))) (x (ix2 r q)) = _
  rw [Cert.ReferenceIdeal.ReadP.val_main_v47_apply, Cert.ReferenceIdeal.ReadP.val_main_v46_apply,
    Cert.ReferenceIdeal.ReadP.val_main_call1_v0_apply, Cert.ReferenceIdeal.ReadP.val_main_call1_cst_apply]
  have e : Cert.ReferenceIdeal.ReadP.idx_main_v46 (Cert.ReferenceIdeal.ReadP.idx_main_v47 (ix2 r q)) = ix1 q :=
    funext fun a => match a with | ⟨0, _⟩ => rfl
  rw [e]
  rfl

/-- An entry of the stored block is the matching entry of the epilogue of whole arrays, whenever the block's operands
    read those arrays there: the aggregate's and the features' block at `j` the arrays at `i`, on the same lane, and
    the bias' block the whole bias. -/
theorem block_entry (A X : Vec Ideal S50000x64 .f32) (B b : Vec Ideal S64 .f32) (a x : Vec Ideal S5000x64 .f32)
    (j : S5000x64.Idx) (i : S50000x64.Idx) (hl : (i 1).val = (j 1).val)
    (ha : a j = A i) (hx : x j = X i) (hb : ∀ k : S64.Idx, b k = B k) :
    k1_pay1 (F := Ideal) b a x j = Cert.RefValue.epilogue (F := Ideal) A X B i := by
  obtain ⟨p, q, rfl⟩ : ∃ (p : Fin 5000) (q : Fin 64), j = ix2 p q := ⟨j 0, j 1, eq_ix2 j⟩
  obtain ⟨r, q', rfl⟩ : ∃ (r : Fin 50000) (q' : Fin 64), i = ix2 r q' := ⟨i 0, i 1, eq_ix2 i⟩
  obtain rfl : q' = q := Fin.ext hl
  rw [payload_apply, epilogue_apply, ha, hx, hb]

variable (m : (ℓ : Loc nD τ sig) → Buf (Elt Ideal) ℓ) (ρ : Dev nD → PrngReg)

/-! ## The blocks -/

/-- A whole-block access of a rank-2 block starts at offset zero on both axes. -/
theorem zero_off2 : (![0, 0] : Fin 2 → Nat) = fun _ => 0 := funext fun a => by fin_cases a <;> rfl
/-- So does the bias' on its one axis. -/
theorem zero_off1 : (![0] : Fin 1 → Nat) = fun _ => 0 := funext fun a => by fin_cases a <;> rfl

/-- The printed index maps, decided over the ten points: the aggregate's, the features' and the result's block at point
    `t` is block `(t, 0)`, the bias' block is block `0`. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- What point `t` writes back is block `t` of the epilogue of the arrays region 1 is entered with, whatever they
    hold: each operand's block reads its array where the result's block lies (the aggregate's and the features' index
    maps are the result's, the bias' block is the whole bias). -/
theorem written_block (V : (c : Dev nD) → (b : Ref sig .tc) → Buf (Elt Ideal) ((c : Thread nD τ).loc b)) (c : Dev nD) (t : Fin cfg1.N) :
    (dat1 V c).flushed 3 t = ((cfg1.win 3).blk t).view.read (Elt Ideal)
      (Cert.RefValue.epilogue (F := Ideal) (V c main_v44) (V c main_arg0) (V c main_arg3)) := by
  show (cfg1.win 3).cut (grid1.coords t) ((dat1 V c).after 3 t) = _
  rw [after1_3]
  unfold out1_3
  rw [View.canon_unit_zero zero_off2]
  simp only [View.ld_unit_zero (S := S5000x64) zero_off2, View.ld_unit_zero (S := S64) zero_off1]
  funext y
  have h0 : (y 0).val < 5000 := (y 0).isLt
  have h1 : (y 1).val < 64 := (y 1).isLt
  obtain ⟨e00, e01, e10, e11, e2, e30, e31⟩ := index_facts t
  -- the lane: the result's block index on the lane axis is 0
  have hl : ((((cfg1.win 3).blk t).view.emb y) 1).val = (((win1 3).xinj (grid1.coords t) y) 1).val := by
    show win1_3.index t (1 : Fin 2) * 64 + 1 * (y 1).val = (y 1).val
    omega
  -- the aggregate's block reads the aggregate where the result's block lies
  have ha : iblk1 V c 0 t ((win1 3).xinj (grid1.coords t) y) = V c main_v44 (((cfg1.win 3).blk t).view.emb y) := by
    show V c main_v44 (((cfg1.win 0).blk t).view.emb _) = V c main_v44 (((cfg1.win 3).blk t).view.emb y)
    refine congrArg _ (funext fun a => Fin.ext ?_)
    match a with
    | ⟨0, _⟩ => show win1_0.index t (0 : Fin 2) * 5000 + 1 * (y 0).val = win1_3.index t (0 : Fin 2) * 5000 + 1 * (y 0).val; omega
    | ⟨1, _⟩ => show win1_0.index t (1 : Fin 2) * 64 + 1 * (y 1).val = win1_3.index t (1 : Fin 2) * 64 + 1 * (y 1).val; omega
  -- so does the features' block
  have hx : iblk1 V c 1 t ((win1 3).xinj (grid1.coords t) y) = V c main_arg0 (((cfg1.win 3).blk t).view.emb y) := by
    show V c main_arg0 (((cfg1.win 1).blk t).view.emb _) = V c main_arg0 (((cfg1.win 3).blk t).view.emb y)
    refine congrArg _ (funext fun a => Fin.ext ?_)
    match a with
    | ⟨0, _⟩ => show win1_1.index t (0 : Fin 2) * 5000 + 1 * (y 0).val = win1_3.index t (0 : Fin 2) * 5000 + 1 * (y 0).val; omega
    | ⟨1, _⟩ => show win1_1.index t (1 : Fin 2) * 64 + 1 * (y 1).val = win1_3.index t (1 : Fin 2) * 64 + 1 * (y 1).val; omega
  -- the bias' block is the whole bias
  have hb : ∀ k : S64.Idx, iblk1 V c 2 t k = V c main_arg3 k := by
    intro k
    show V c main_arg3 (((cfg1.win 2).blk t).view.emb k) = V c main_arg3 k
    refine congrArg _ (funext fun a => Fin.ext ?_)
    match a with
    | ⟨0, _⟩ => show win1_2.index t (0 : Fin 1) * 64 + 1 * (k 0).val = (k 0).val; omega
  show k1_pay1 (F := Ideal) (iblk1 V c 2 t) (iblk1 V c 0 t) (iblk1 V c 1 t) ((win1 3).xinj (grid1.coords t) y)
    = Cert.RefValue.epilogue (F := Ideal) (V c main_v44) (V c main_arg0) (V c main_arg3) (((cfg1.win 3).blk t).view.emb y)
  exact block_entry (V c main_v44) (V c main_arg0) (V c main_arg3) (iblk1 V c 2 t) (iblk1 V c 0 t) (iblk1 V c 1 t)
    ((win1 3).xinj (grid1.coords t) y) (((cfg1.win 3).blk t).view.emb y) hl ha hx hb

/-- An index of the result array is in point `t`'s block iff each coordinate is in the block's range on its axis. -/
theorem mem_block (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v45).slice (win1_3.rect t)).set ↔ _
  rw [View.set_slice_whole, Rect.mem_set_unit]
  exact Iff.rfl

/-- The ten blocks tile the result array: row `r` lies in the block of point `r / 5000`. -/
theorem covered (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, e30, e31⟩ := index_facts t
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- After region 1 the result array holds the epilogue of the aggregate region 1 was entered with. -/
theorem out_array (c : Dev nD) :
    W6 m ρ c (Proc.devRef .tc main_v45)
      = Cert.RefValue.epilogue (F := Ideal) (W5 m ρ c (Proc.devRef .tc main_v44)) (m ((c : Thread nD τ).loc main_arg0)) (m ((c : Thread nD τ).loc main_arg3)) := by
  -- the result array after the region is the write-backs folded; they tile it with blocks of one function
  refine (W6_arr m ρ c 3).trans ?_
  refine ((dat1 (V5 m ρ) c).arrAt_eq_of_cover 3 _ (fun t _ => written_block (V5 m ρ) c t) covered).trans ?_
  -- at region 1's entry the features and the bias are the launch memory's
  show Cert.RefValue.epilogue (F := Ideal) (W5 m ρ c (Proc.devRef .tc main_v44)) (W5 m ρ c (Proc.devRef .tc main_arg0))
    (W5 m ρ c (Proc.devRef .tc main_arg3)) = _
  rw [Boundary.W5_main_arg0 m ρ c, Boundary.W5_main_arg3 m ρ c]

end Cert.KernelIdeal.EpilogueValue

end
-- ==== Proof.KernelValue.lean ====
/-
  The kernel program's result as a function of its arguments, at the ideal values: the reference's own last
  stage. Region 0 leaves `h = x · W`; the host operations between the regions scatter-add the messages
  `nrm · h[row]` along `col`, with `nrm = dinv[row] · dinv[col]` equal to the reference's normalisation because its
  extra factor is `1`; region 1 applies `max (agg + b, 0) + x` entry by entry.
-/
import proofs.«111839_j88527865905437_1_alg».proof.Proof.HostValue
import proofs.«111839_j88527865905437_1_alg».proof.Proof.LinearValue
import proofs.«111839_j88527865905437_1_alg».proof.Proof.EpilogueValue

set_option maxRecDepth 16384

noncomputable section

namespace Cert.KernelIdeal.KernelValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- At region 1's entry the aggregate buffer holds the reference's aggregate stage of the launch arguments:
    region 0's array is untouched by the host operations before it is gathered, the index lists and the
    normalisation are as region 0 found them, and the normalisation is the reference's by `a · 1 = a`. -/
theorem agg_value (c : Dev nD) :
    W5 m ρ c (Proc.devRef .tc main_v44)
      = Cert.ReferenceIdeal.ReadP.val_main_v45 (F := Ideal) (m ((c : Thread nD τ).loc main_arg0))
          (m ((c : Thread nD τ).loc main_arg1)) (m ((c : Thread nD τ).loc main_arg2)) := by
  rw [Cert.AggSpec.val_main_v45_eq, ← Cert.AggSpec.edgeNorm_eq]
  exact HostValue.agg_W5 m ρ c _ _ _ _
    ((W4_of_ne m ρ c main_v30 (by decide)).trans (HostValue.nrm_W3 m ρ c))
    (LinearValue.h_array m ρ c)
    ((W4_of_ne m ρ c main_v3 (by decide)).trans (HostValue.row_W3 m ρ c))
    ((W4_of_ne m ρ c main_v6 (by decide)).trans (HostValue.col_W3 m ρ c))

/-- After the last region the result buffer holds the reference's result stage of the launch arguments. -/
theorem result_value (c : Dev nD) :
    W6 m ρ c (Proc.devRef .tc main_v45)
      = Cert.ReferenceIdeal.ReadP.val_main_v50 (F := Ideal) (m ((c : Thread nD τ).loc main_arg0))
          (m ((c : Thread nD τ).loc main_arg1)) (m ((c : Thread nD τ).loc main_arg2)) (m ((c : Thread nD τ).loc main_arg3)) := by
  rw [Cert.RefValue.val_main_v50_eq_epilogue, ← agg_value m ρ c]
  exact EpilogueValue.out_array m ρ c

end Cert.KernelIdeal.KernelValue

end
-- ==== Proof.lean ====
/-
  The certificate of a residual graph-convolution layer: `out = relu (Â (x · W) + b) + x` with
  `Â = D^{-1/2} (A + I) D^{-1/2}` given by an edge list. The kernel's program computes `x · W` and the epilogue
  `max (agg + b, 0) + x` in two tiled kernel regions (ten row blocks of 5000 each) and everything between them —
  the degrees, the normalisation, the gather and the scatter-add of the messages — by the same host operations
  as the reference.

  At the ideal values the two programs compute one function of the arguments: the bf16 casts are the identity, a
  block's matrix product into a zero accumulator is the rows' part of the whole product, the blocks tile the
  arrays, and the reference's extra factor of unit edge weights is `a · 1 = a`. Nothing needs the inputs finite.

  The three frames are the generated runs (the reference's with its result dropped); no rewrite was applied by the
  idealization, so there is nothing to preserve.
-/
import proofs.«111839_j88527865905437_1_alg».proof.Defs
import proofs.«111839_j88527865905437_1_alg».proof.Proof.Gen.Kernel.Frame
import proofs.«111839_j88527865905437_1_alg».proof.Proof.Gen.KernelIdeal.Frame
import proofs.«111839_j88527865905437_1_alg».proof.Proof.Gen.Pre_finite_inputs
import proofs.«111839_j88527865905437_1_alg».proof.Proof.KernelRun
import proofs.«111839_j88527865905437_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- Both runs end with the reference's result stage of the kernel side's arguments: the kernel's by
    `result_value`, the reference's by its own run read stage by stage, its arguments rewritten by the agreement. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.KernelValue.result_value m ρ c), (h c).2⟩)
    (Cert.KernelIdeal.RunV.run_result (F := Ideal) m ρ), ?_⟩
  refine (θ_run Cert.ReferenceIdeal.defs _ _).mono (fun r h c => ⟨(h c).1.trans ?_, (h c).2⟩)
    (Cert.ReferenceIdeal.RunP.run (F := Ideal) m' ρ')
  rw [Cert.ReferenceIdeal.ReadP.val_main_v50_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
